-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000x32 : Shape := ⟨2, ![1600000, 32]⟩
abbrev S128x64 : Shape := ⟨2, ![128, 64]⟩
abbrev S64 : Shape := ⟨1, ![64]⟩
abbrev S32x64 : Shape := ⟨2, ![32, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x32 : S_.BroadcastsInDim S1600000x32 (![] : Fin 0 → Fin S1600000x32.rank)
  reducesTo_S1600000x32_S_d0_1 : S1600000x32.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_

variable [Facts]

def fn_part1 {F : FTy → Type} [FloatOps F] (main_arg5 : FVec F S32x64 .f32) (main_arg6 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S32x64 .f32 := Host.absf main_arg5
  let main_cst_6 : FVec F S_ .f32 := constant S_ .f32 0x7F800000#32
  let main_v20 : FVec F S32x64 .f32 := broadcastInDim S32x64 ![] bcast_S_S32x64 main_cst_6
  let main_v21 : IVec S32x64 1 := cmpf .olt main_v19 main_v20
  let main_c_7 : IVec S_ 1 := constantI S_ 1 1#1
  let main_v22 : IVec S_ 1 := (fun x v => Host.reduce IntOp.andi x v reducesTo_S32x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S100000x128 .f32) (main_arg1 : IVec S2x1600000 32) (main_arg2 : FVec F S1600000x32 .f32) (main_arg3 : FVec F S128x64 .f32) (main_arg4 : FVec F S64 .f32) (main_arg5 : FVec F S32x64 .f32) (main_arg6 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x32 .f32 := Host.absf main_arg2
  let main_cst_0 : FVec F S_ .f32 := constant S_ .f32 0x7F800000#32
  let main_v5 : FVec F S1600000x32 .f32 := broadcastInDim S1600000x32 ![] bcast_S_S1600000x32 main_cst_0
  let main_v6 : IVec S1600000x32 1 := cmpf .olt main_v4 main_v5
  let main_c_1 : IVec S_ 1 := constantI S_ 1 1#1
  let main_v7 : IVec S_ 1 := (fun x v => Host.reduce IntOp.andi x v reducesTo_S1600000x32_S_d0_1 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_v13 main_v16
-- ==== Kernel.lean ====
abbrev S100000x128 : Shape := ⟨2, ![100000, 128]⟩
abbrev S2x1600000 : Shape := ⟨2, ![2, 1600000]⟩
abbrev S1600000x32 : Shape := ⟨2, ![1600000, 32]⟩
abbrev S128x64 : Shape := ⟨2, ![128, 64]⟩
abbrev S64 : Shape := ⟨1, ![64]⟩
abbrev S32x64 : Shape := ⟨2, ![32, 64]⟩
abbrev S100000x64 : Shape := ⟨2, ![100000, 64]⟩
abbrev S5000x128 : Shape := ⟨2, ![5000, 128]⟩
abbrev S5000x64 : Shape := ⟨2, ![5000, 64]⟩
abbrev S1x64 : Shape := ⟨2, ![1, 64]⟩
abbrev S1600000x64 : Shape := ⟨2, ![1600000, 64]⟩
abbrev S16000x32 : Shape := ⟨2, ![16000, 32]⟩
abbrev S16000x64 : Shape := ⟨2, ![16000, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000 : Shape := ⟨1, ![100000]⟩
abbrev S100000x1 : Shape := ⟨2, ![100000, 1]⟩

abbrev nBuf : Space → Nat
  | .hbm => 39
  | .vmem => 12
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000x32, .f32⟩
  | .hbm, ⟨3, _⟩ => ⟨S128x64, .f32⟩
  | .hbm, ⟨4, _⟩ => ⟨S64, .f32⟩
  | .hbm, ⟨5, _⟩ => ⟨S32x64, .f32⟩
  | .hbm, ⟨6, _⟩ => ⟨S64, .f32⟩
  | .hbm, ⟨7, _⟩ => ⟨S100000x64, .f32⟩
  | .hbm, ⟨8, _⟩ => ⟨S1600000x64, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x64, .f32⟩
  | .hbm, ⟨22, _⟩ => ⟨S1600000x64, .f32⟩
  | .hbm, ⟨23, _⟩ => ⟨S_, .f32⟩
  | .hbm, ⟨24, _⟩ => ⟨S100000x64, .f32⟩
  | .hbm, ⟨25, _⟩ => ⟨S1600000x1, .i32⟩
  | .hbm, ⟨26, _⟩ => ⟨S100000x64, .f32⟩
  | .hbm, ⟨27, _⟩ => ⟨S_, .f32⟩
  | .hbm, ⟨28, _⟩ => ⟨S1600000, .f32⟩
  | .hbm, ⟨29, _⟩ => ⟨S_, .f32⟩
  | .hbm, ⟨30, _⟩ => ⟨S100000, .f32⟩
  | .hbm, ⟨31, _⟩ => ⟨S1600000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x64, .f32⟩
  | .hbm, ⟨38, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S64, .f32⟩
  | .local _ .vmem, ⟨4, _⟩ => ⟨S5000x64, .f32⟩
  | .local _ .vmem, ⟨5, _⟩ => ⟨S5000x64, .f32⟩
  | .local _ .vmem, ⟨6, _⟩ => ⟨S16000x32, .f32⟩
  | .local _ .vmem, ⟨7, _⟩ => ⟨S16000x32, .f32⟩
  | .local _ .vmem, ⟨8, _⟩ => ⟨S32x64, .f32⟩
  | .local _ .vmem, ⟨9, _⟩ => ⟨S64, .f32⟩
  | .local _ .vmem, ⟨10, _⟩ => ⟨S16000x64, .f32⟩
  | .local _ .vmem, ⟨11, _⟩ => ⟨S16000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S16000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S16000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  inb_S16000x32_S16000x32_0_0 : ∀ a, (![0, 0] : Fin 2 → Nat) a + S16000x32.size a ≤ S16000x32.size a
  h_S16000x32 : 0 < S16000x32.numel
  inb_S32x64_S32x64_0_0 : ∀ a, (![0, 0] : Fin 2 → Nat) a + S32x64.size a ≤ S32x64.size a
  h_S32x64 : 0 < S32x64.numel
  broadcasts_S1x64_S16000x64 : S1x64.Broadcasts S16000x64
  inb_S16000x64_S16000x64_0_0 : ∀ a, (![0, 0] : Fin 2 → Nat) a + S16000x64.size a ≤ S16000x64.size a
  h_S16000x64 : 0 < S16000x64.numel
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  dot_S5000x128_S128x64_S5000x64_1_0_0_1_n_n_wf : DotDims.WF S5000x128 S128x64 S5000x64 [1] [0] [0] [1] [] []
  dot_S16000x32_S32x64_S16000x64_1_0_0_1_n_n_wf : DotDims.WF S16000x32 S32x64 S16000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16000x32.size a ≤ S1600000x32.size a
  hwx1_0 : ∀ i : grid1.Coords, EltTy.bits .f32 = 32 ∨ (Rect.block (s := S1600000x32) S16000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x64.size a ≤ S32x64.size a
  hwx1_1 : ∀ i : grid1.Coords, EltTy.bits .f32 = 32 ∨ (Rect.block (s := S32x64) S32x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S16000x64.size a ≤ S1600000x64.size a
  hwx1_3 : ∀ i : grid1.Coords, EltTy.bits .f32 = 32 ∨ (Rect.block (s := S1600000x64) S16000x64.size (cc1_transform_3 i) (hinb1_3 i)).WholeWords (EltTy.packing .f32)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S16000x32_S32x64_S16000x64_1_0_0_1_n_n : DotDims S16000x32 S32x64 S16000x64 where
  lhsContracting := [1]
  rhsContracting := [0]
  lhsNonContracting := [0]
  rhsNonContracting := [1]
  lhsBatch := []
  rhsBatch := []
  wf := dot_S16000x32_S32x64_S16000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg2) S16000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S32x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S16000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000x32 : Shape := ⟨2, ![1600000, 32]⟩
abbrev S128x64 : Shape := ⟨2, ![128, 64]⟩
abbrev S64 : Shape := ⟨1, ![64]⟩
abbrev S32x64 : Shape := ⟨2, ![32, 64]⟩
abbrev S100000x64 : Shape := ⟨2, ![100000, 64]⟩
abbrev S1x64 : Shape := ⟨2, ![1, 64]⟩
abbrev S1600000x64 : Shape := ⟨2, ![1600000, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000 : Shape := ⟨1, ![100000]⟩
abbrev S100000x1 : Shape := ⟨2, ![100000, 1]⟩

abbrev nBuf : Space → Nat
  | .hbm => 45
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000x32, .f32⟩
  | .hbm, ⟨3, _⟩ => ⟨S128x64, .f32⟩
  | .hbm, ⟨4, _⟩ => ⟨S64, .f32⟩
  | .hbm, ⟨5, _⟩ => ⟨S32x64, .f32⟩
  | .hbm, ⟨6, _⟩ => ⟨S64, .f32⟩
  | .hbm, ⟨7, _⟩ => ⟨S100000x64, .f32⟩
  | .hbm, ⟨8, _⟩ => ⟨S1x64, .f32⟩
  | .hbm, ⟨9, _⟩ => ⟨S100000x64, .f32⟩
  | .hbm, ⟨10, _⟩ => ⟨S100000x64, .f32⟩
  | .hbm, ⟨11, _⟩ => ⟨S1600000x64, .f32⟩
  | .hbm, ⟨12, _⟩ => ⟨S1x64, .f32⟩
  | .hbm, ⟨13, _⟩ => ⟨S1600000x64, .f32⟩
  | .hbm, ⟨14, _⟩ => ⟨S1600000x64, .f32⟩
  | .hbm, ⟨15, _⟩ => ⟨S1x1600000, .i32⟩
  | .hbm, ⟨16, _⟩ => ⟨S1600000, .i32⟩
  | .hbm, ⟨17, _⟩ => ⟨S1x1600000, .i32⟩
  | .hbm, ⟨18, _⟩ => ⟨S1600000, .i32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x64, .f32⟩
  | .hbm, ⟨28, _⟩ => ⟨S1600000x64, .f32⟩
  | .hbm, ⟨29, _⟩ => ⟨S_, .f32⟩
  | .hbm, ⟨30, _⟩ => ⟨S100000x64, .f32⟩
  | .hbm, ⟨31, _⟩ => ⟨S1600000x1, .i32⟩
  | .hbm, ⟨32, _⟩ => ⟨S100000x64, .f32⟩
  | .hbm, ⟨33, _⟩ => ⟨S_, .f32⟩
  | .hbm, ⟨34, _⟩ => ⟨S1600000, .f32⟩
  | .hbm, ⟨35, _⟩ => ⟨S_, .f32⟩
  | .hbm, ⟨36, _⟩ => ⟨S100000, .f32⟩
  | .hbm, ⟨37, _⟩ => ⟨S1600000x1, .i32⟩
  | .hbm, ⟨38, _⟩ => ⟨S100000, .f32⟩
  | .hbm, ⟨39, _⟩ => ⟨S_, .f32⟩
  | .hbm, ⟨40, _⟩ => ⟨S100000, .f32⟩
  | .hbm, ⟨41, _⟩ => ⟨S100000, .f32⟩
  | .hbm, ⟨42, _⟩ => ⟨S100000x1, .f32⟩
  | .hbm, ⟨43, _⟩ => ⟨S100000x64, .f32⟩
  | .hbm, ⟨44, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_v12 : Ref sig .tc := ⟨.hbm, 20, rfl⟩
abbrev main_v13 : Ref sig .tc := ⟨.hbm, 21, rfl⟩
abbrev main_c_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1x64_S1600000x64_0_1 : S1x64.BroadcastsInDim S1600000x64 (![0, 1] : Fin 2 → Fin S1600000x64.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  dot_S100000x128_S128x64_S100000x64_1_0_0_1_n_n_wf : DotDims.WF S100000x128 S128x64 S100000x64 [1] [0] [0] [1] [] []
  dot_S1600000x32_S32x64_S1600000x64_1_0_0_1_n_n_wf : DotDims.WF S1600000x32 S32x64 S1600000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S1600000x32_S32x64_S1600000x64_1_0_0_1_n_n : DotDims S1600000x32 S32x64 S1600000x64 where
  lhsContracting := [1]
  rhsContracting := [0]
  lhsNonContracting := [0]
  rhsNonContracting := [1]
  lhsBatch := []
  rhsBatch := []
  wf := dot_S1600000x32_S32x64_S1600000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf

class Facts : Prop extends Facts₀ where

variable [Facts]
-- ==== Proof.LibSageSpec.lean ====
/-
  Dense layers at the extended reals, index by index. A layer's entry (p, q) is a sum over the contracted axis of a row
  of the left matrix against a column of the right one, plus a bias read at the column; a SAGE layer adds two such sums
  (the aggregated neighbours against one weight matrix, the node's own features against another) before the bias. The
  leaky activation is spelt exactly as both programs spell it: a select on `s ≥ 0` between `s` and a constant times `s`.
  A matrix product whose dimension numbers are the plain "rows by columns" ones (contract axis 1 of the left operand with
  axis 0 of the right) reads at (p, q) as that sum, on the MXU into a zero accumulator and on the host alike.
-/
import Idealize.ShloMosaic.PureOps.Ideal
import Idealize.ShloMosaic.PureOps.Ideal.Laws
import Idealize.ShloMosaic.Lib.ValueIdx

noncomputable section

open scoped BigOperators

namespace Idealize.ShloMosaic.SageSpec

open Idealize.ShloMosaic Idealize.ShloMosaic.ValueIdx

/-- An [n × m] matrix of extended reals. -/
abbrev Mat (n m : Nat) : Type := (⟨2, ![n, m]⟩ : Shape).Idx → EReal

/-- Row `p` of `x` against column `q` of `W`. -/
def rowDot {n k m : Nat} (x : Mat n k) (W : Mat k m) (p : Fin n) (q : Fin m) : EReal :=
  ∑ j : Fin k, x (ix2 p j) * W (ix2 j q)

/-- The leaky activation as printed: `s` where `s ≥ 0`, else the slope constant (the f32 nearest 0.01) times `s`. -/
def leakyAt (s : EReal) : EReal :=
  Scalar.select (FloatOps.cmpf (F := Ideal) (φ := .f32) .oge s (Ideal.ofBits .f32 0x00000000#32)) s
    (FloatOps.mulf (F := Ideal) (φ := .f32) (Ideal.ofBits .f32 0x3C23D70A#32) s)

/-- A linear layer: `x · W + b`. -/
def linF {n k m : Nat} (x : Mat n k) (W : Mat k m) (b : Fin m → EReal) : Mat n m :=
  fun i => rowDot x W (i 0) (i 1) + b (i 1)

/-- A SAGE layer: `act (agg · Wl + h · Wr + b)`, the sums grouped as the kernel groups them. -/
def sageF {n k m : Nat} (act : EReal → EReal) (agg h : Mat n k) (Wl Wr : Mat k m) (b : Fin m → EReal) : Mat n m :=
  fun i => act (rowDot agg Wl (i 0) (i 1) + rowDot h Wr (i 0) (i 1) + b (i 1))

/-- The reference groups the bias with the first product: the same extended real (addition of extended reals is
    commutative and associative, infinities included). -/
theorem add_bias_comm (a b c : EReal) : a + c + b = a + b + c := add_right_comm a c b

/-- Dimension numbers of a plain [n × k] · [k × m] product: one contracted axis of extent `k`, the left operand read at
    (row, κ), the right at (κ, column). -/
structure PlainDot {n k m : Nat} (d : DotDims ⟨2, ![n, k]⟩ ⟨2, ![k, m]⟩ ⟨2, ![n, m]⟩) : Prop where
  rank : d.contr.rank = 1
  size : ∀ h : 0 < d.contr.rank, d.contr.size ⟨0, h⟩ = k
  l0 : ∀ (i : (⟨2, ![n, m]⟩ : Shape).Idx) (q : d.contr.Idx), (d.lhsIdx i q 0).val = (i 0).val
  l1 : ∀ (i : (⟨2, ![n, m]⟩ : Shape).Idx) (q : d.contr.Idx) (h : 0 < d.contr.rank), (d.lhsIdx i q 1).val = (q ⟨0, h⟩).val
  r0 : ∀ (i : (⟨2, ![n, m]⟩ : Shape).Idx) (q : d.contr.Idx) (h : 0 < d.contr.rank), (d.rhsIdx i q 0).val = (q ⟨0, h⟩).val
  r1 : ∀ (i : (⟨2, ![n, m]⟩ : Shape).Idx) (q : d.contr.Idx), (d.rhsIdx i q 1).val = (i 1).val

section
variable {n k m : Nat} {d : DotDims ⟨2, ![n, k]⟩ ⟨2, ![k, m]⟩ ⟨2, ![n, m]⟩}

/-- The contracted sum of a plain product, re-indexed by the contracted axis's coordinate. -/
theorem PlainDot.sum_eq (hd : PlainDot d) (a : Mat n k) (w : Mat k m) (j : (⟨2, ![n, m]⟩ : Shape).Idx) :
    ∑ q : d.contr.Idx, a (d.lhsIdx j q) * w (d.rhsIdx j q) = rowDot a w (j 0) (j 1) := by
  have h0 : 0 < d.contr.rank := by rw [hd.rank]; exact Nat.one_pos
  unfold rowDot
  rw [← Equiv.sum_comp (contrEquiv1 d k hd.rank (hd.size _)).symm]
  refine Finset.sum_congr rfl fun κ _ => ?_
  have hk := contrEquiv1_symm_val d k hd.rank (hd.size _) κ
  have el : d.lhsIdx j ((contrEquiv1 d k hd.rank (hd.size _)).symm κ) = ix2 (j 0) κ := funext fun a => Fin.ext (by
    match a with
    | ⟨0, _⟩ => exact hd.l0 _ _
    | ⟨1, _⟩ => exact (hd.l1 _ _ h0).trans hk)
  have er : d.rhsIdx j ((contrEquiv1 d k hd.rank (hd.size _)).symm κ) = ix2 κ (j 1) := funext fun a => Fin.ext (by
    match a with
    | ⟨0, _⟩ => exact (hd.r0 _ _ h0).trans hk
    | ⟨1, _⟩ => exact hd.r1 _ _)
  rw [el, er] <;> rfl

/-- The MXU's product into a zero accumulator, at (p, q): row `p` against column `q`. Whatever the operands' formats:
    at the extended reals a change of format is the identity. -/
theorem matmul_zero_at {φ₁ φ₂ : FTy} (hd : PlainDot d) (prec : Option ContractPrecision) (a : FVec Ideal ⟨2, ![n, k]⟩ φ₁)
    (w : FVec Ideal ⟨2, ![k, m]⟩ φ₂) (j : (⟨2, ![n, m]⟩ : Shape).Idx) :
    FloatOps.matmul d prec a w (constant ⟨2, ![n, m]⟩ .f32 0x00000000#32) j = rowDot (fun i => a i) (fun i => w i) (j 0) (j 1) := by
  rw [Ideal.matmul_constant_zero_apply]
  exact hd.sum_eq (fun i => a i) (fun i => w i) j

/-- The host's `dot_general`, at (p, q): the same sum. -/
theorem dotGeneral_at {φ₁ φ₂ : FTy} (hd : PlainDot d) (prec : Option ContractPrecision) (a : FVec Ideal ⟨2, ![n, k]⟩ φ₁)
    (w : FVec Ideal ⟨2, ![k, m]⟩ φ₂) (j : (⟨2, ![n, m]⟩ : Shape).Idx) :
    Host.dotGeneral d prec a w j = rowDot (fun i => a i) (fun i => w i) (j 0) (j 1) := by
  simp only [Host.dotGeneral]
  rw [Ideal.dotGeneral_apply]
  exact hd.sum_eq (fun i => a i) (fun i => w i) j

end

end Idealize.ShloMosaic.SageSpec

end
-- ==== Proof.LinearBlock.lean ====
/-
  One block of rows of a dense layer, at the extended reals. The body takes a block `x` of `t` rows, the whole weight
  matrix `w` and the bias `b`; it multiplies the block by the matrix into a zero accumulator and adds the bias, laid out
  as one row and repeated down the block. Entry (p, q) of what it stores is therefore row `p` of the block against column
  `q` of the matrix, plus `b q`. The operands are narrowed to a shorter float format before the product; at the extended
  reals a change of format is the identity, so the narrowing leaves no trace.
-/
import Idealize.ShloMosaic.PureOps.Ideal
import Idealize.ShloMosaic.Lib.ValueIdx
import Idealize.ShloMosaic.Lib.ValueLayout
import Idealize.ShloMosaic.Lib.Pipeline.Value
import proofs.«171068_j35837207117863_1_alg».proof.Proof.LibSageSpec

noncomputable section

namespace Cert.LinearBlock

open Idealize.ShloMosaic Idealize.ShloMosaic.ValueIdx Idealize.ShloMosaic.SageSpec

/-- A rectangle's zero offset, of rank 2 and of rank 1, as the constant-zero function. -/
theorem zero_off2 : (![0, 0] : Fin 2 → Nat) = fun _ => 0 := funext fun a => by fin_cases a <;> rfl
theorem zero_off1 : (![0] : Fin 1 → Nat) = fun _ => 0 := funext fun a => by fin_cases a <;> rfl

/-- The stored block at (p, q): the row-by-column sum plus the bias at the column. -/
theorem block_at {t k m : Nat} {d : DotDims ⟨2, ![t, k]⟩ ⟨2, ![k, m]⟩ ⟨2, ![t, m]⟩} (hd : PlainDot d)
    (x : FVec Ideal ⟨2, ![t, k]⟩ .f32) (w : FVec Ideal ⟨2, ![k, m]⟩ .f32) (b : FVec Ideal ⟨1, ![m]⟩ .f32)
    (hlt : FTy.bf16.bits < FTy.f32.bits)
    (h1 : (⟨1, ![m]⟩ : Shape).ShapeCasts ⟨2, ![1, m]⟩) (h2 : (⟨2, ![1, m]⟩ : Shape).Broadcasts ⟨2, ![t, m]⟩)
    (p : Fin t) (q : Fin m) :
    addf (matmul d none (truncf .bf16 x hlt) (truncf .bf16 w hlt) (constant ⟨2, ![t, m]⟩ .f32 0x00000000#32))
        (broadcastTo ⟨2, ![t, m]⟩ (shapeCast ⟨2, ![1, m]⟩ b h1) h2) (ix2 p q)
      = rowDot x w p q + b (ix1 q) := by
  rw [addf_apply]
  refine congrArg₂ (· + ·) ?_ ?_
  · exact matmul_zero_at hd none (truncf .bf16 x hlt) (truncf .bf16 w hlt) (ix2 p q)
  · rw [broadcastTo_1b_ab_apply, shapeCast_a_1a_apply]

/-- The whole layer restricted to the block's rows. Let `j` be an index of the block and `i` an index of the whole layer's
    result with the same column, and let the block's row `j 0` be the matrix's row `i 0`. Then the stored entry at `j` is the
    layer's entry at `i`. -/
theorem block_eq_layer {n t k m : Nat} {d : DotDims ⟨2, ![t, k]⟩ ⟨2, ![k, m]⟩ ⟨2, ![t, m]⟩} (hd : PlainDot d)
    (X : Mat n k) (x : FVec Ideal ⟨2, ![t, k]⟩ .f32) (w : FVec Ideal ⟨2, ![k, m]⟩ .f32) (b : FVec Ideal ⟨1, ![m]⟩ .f32)
    (hlt : FTy.bf16.bits < FTy.f32.bits)
    (h1 : (⟨1, ![m]⟩ : Shape).ShapeCasts ⟨2, ![1, m]⟩) (h2 : (⟨2, ![1, m]⟩ : Shape).Broadcasts ⟨2, ![t, m]⟩)
    (j : (⟨2, ![t, m]⟩ : Shape).Idx) (i : (⟨2, ![n, m]⟩ : Shape).Idx) (hcol : (i 1).val = (j 1).val)
    (hx : ∀ κ : Fin k, x (ix2 (j 0) κ) = X (ix2 (i 0) κ)) :
    addf (matmul d none (truncf .bf16 x hlt) (truncf .bf16 w hlt) (constant ⟨2, ![t, m]⟩ .f32 0x00000000#32))
        (broadcastTo ⟨2, ![t, m]⟩ (shapeCast ⟨2, ![1, m]⟩ b h1) h2) j
      = linF X (fun a => w a) (fun c => b (ix1 c)) i := by
  obtain ⟨p, q, rfl⟩ : ∃ (p : Fin t) (q : Fin m), j = ix2 p q := ⟨j 0, j 1, eq_ix2 j⟩
  rw [block_at hd]
  have hq : i 1 = q := Fin.ext hcol
  unfold linF rowDot
  rw [hq]
  refine congrArg₂ (· + ·) (Finset.sum_congr rfl fun κ _ => ?_) rfl
  exact congrArg (· * w (ix2 κ q)) (hx κ)

end Cert.LinearBlock

end
-- ==== Proof.NodeLayer.lean ====
/-
  The node projection at the extended reals. The region runs one body over a grid of 20 points; point t takes rows
  5000·t … 5000·t + 4999 of the node features x, the whole weight matrix W and the whole bias b, and writes the same rows
  of the result: the block of rows times W, plus b repeated down the block. The 20 blocks tile the 100000 rows, so after
  the last point the result array is the dense layer x·W + b of the arrays the region found, entry by entry.
-/
import proofs.«171068_j35837207117863_1_alg».proof.Proof.Gen.KernelIdeal.Frame
import proofs.«171068_j35837207117863_1_alg».proof.Proof.LinearBlock
import Idealize.ShloMosaic.Lib.Pipeline.Value

set_option maxRecDepth 16384

noncomputable section

namespace Cert.KernelIdeal.NodeLayer

open Idealize.ShloMosaic Idealize.ShloMosaic.TcCoe Idealize.SL.Sem
open Idealize.ShloMosaic.ValueIdx Idealize.ShloMosaic.SageSpec
open Idealize.ShloMosaic.Pipeline (Dat Cfg Window)
open Cert.KernelIdeal Cert.KernelIdeal.Gen Cert.LinearBlock

/-- The product contracts the left operand's columns with the right operand's rows. -/
theorem plain : PlainDot dot_S5000x128_S128x64_S5000x64_1_0_0_1_n_n where
  rank := rfl
  size := fun _ => rfl
  l0 := fun i q => by
    unfold DotDims.lhsIdx
    rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
    rfl
  l1 := fun i q _ => dot_S5000x128_S128x64_S5000x64_1_0_0_1_n_n.lhsIdx_val_of_single rfl i q
  r0 := fun i q _ => dot_S5000x128_S128x64_S5000x64_1_0_0_1_n_n.rhsIdx_val_of_single rfl i q
  r1 := fun i q => by
    unfold DotDims.rhsIdx
    rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
    rfl

/-- The layer as one function of three whole arrays: entry (r, q) is row `r` of `x` against column `q` of `w`, plus `b q`. -/
def dense (x : S100000x128.Idx → EReal) (w : S128x64.Idx → EReal) (b : S64.Idx → EReal) : S100000x64.Idx → EReal :=
  linF x w (fun q => b (ix1 q))

/-- The body's stored value at an index `j` of the block, from three loaded blocks: if the first block's row `j 0` is row `i 0`
    of `x`, the other two blocks are `w` and `b` whole, and `i` has `j`'s column, it is the layer's entry at `i`. -/
theorem stored_eq (X : S100000x128.Idx → EReal) (Wm : S128x64.Idx → EReal) (B : S64.Idx → EReal)
    (x0 : Vec Ideal S5000x128 .f32) (x1 : Vec Ideal S128x64 .f32) (x2 : Vec Ideal S64 .f32)
    (j : S5000x64.Idx) (i : S100000x64.Idx) (hcol : (i 1).val = (j 1).val)
    (hx : ∀ κ : Fin 128, x0 (ix2 (j 0) κ) = X (ix2 (i 0) κ)) (hw : x1 = Wm) (hb : x2 = B) :
    k0_pay1 (F := Ideal) x0 x1 x2 j = dense X Wm B i := by
  subst hw hb
  unfold k0_pay1 dense
  exact block_eq_layer plain X x0 x1 x2 _ _ _ j i hcol hx

/-- The printed index maps over the grid: point `t` takes block `t` of the rows, all the columns, and the weight matrix and
    the bias whole. -/
theorem idx_facts : ∀ t : Fin cfg0.N, win0_0.index t (0 : Fin 2) = t.val ∧ win0_0.index t (1 : Fin 2) = 0
    ∧ win0_3.index t (0 : Fin 2) = t.val ∧ win0_3.index t (1 : Fin 2) = 0
    ∧ win0_1.index t (0 : Fin 2) = 0 ∧ win0_1.index t (1 : Fin 2) = 0 ∧ win0_2.index t (0 : Fin 1) = 0 :=
  (by decide +kernel : ∀ t : Fin grid0.N, _)

/-- Every block of rows is some point's. -/
theorem idx_onto : ∀ q0 : Fin 20, ∃ t : Fin cfg0.N, win0_3.index t = ![q0.val, 0] :=
  (by decide +kernel : ∀ q0 : Fin 20, ∃ t : Fin grid0.N, win0_3.index t = ![q0.val, 0])

section
variable (V : (c : Dev nD) → (b : Ref sig .tc) → Buf (Elt Ideal) ((c : Thread nD τ).loc b))

/-- What point `t` writes back is block `t` of the layer of the arrays as the region finds them. -/
theorem flushed (c : Dev nD) (t : Fin cfg0.N) :
    (dat0 V c).flushed 3 t
      = ((cfg0.win 3).blk t).view.read (Elt Ideal) (dense (V c main_arg0) (V c main_arg3) (V c main_arg4)) := by
  show (cfg0.win 3).cut (grid0.coords t) ((dat0 V c).after 3 t) = _
  rw [after0_3]
  unfold out0_3
  rw [View.canon_unit_zero zero_off2]
  simp only [View.ld_unit_zero (S := S5000x128) zero_off2, View.ld_unit_zero (S := S128x64) zero_off2, View.ld_unit_zero (S := S64) zero_off1]
  obtain ⟨e00, e01, e30, e31, e10, e11, e20⟩ := idx_facts t
  funext j
  show k0_pay1 (F := Ideal) (iblk0 V c 0 t) (iblk0 V c 1 t) (iblk0 V c 2 t) j
    = dense (V c main_arg0) (V c main_arg3) (V c main_arg4) (((cfg0.win 3).blk t).view.emb j)
  refine stored_eq (V c main_arg0) (V c main_arg3) (V c main_arg4) (iblk0 V c 0 t) (iblk0 V c 1 t) (iblk0 V c 2 t) j
    (((cfg0.win 3).blk t).view.emb j) ?_ ?_ ?_ ?_
  · show win0_3.index t (1 : Fin 2) * 64 + 1 * (j 1).val = (j 1).val
    omega
  · intro κ
    show V c main_arg0 (((cfg0.win 0).blk t).view.emb (ix2 (j 0) κ)) = V c main_arg0 (ix2 ((((cfg0.win 3).blk t).view.emb j) 0) κ)
    refine congrArg (V c main_arg0) (funext fun a => Fin.ext ?_)
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 128 + 1 * κ.val = κ.val; omega
  · funext y
    show V c main_arg3 (((cfg0.win 1).blk t).view.emb y) = V c main_arg3 y
    refine congrArg (V c main_arg3) (funext fun a => Fin.ext ?_)
    match a with
    | ⟨0, _⟩ => show win0_1.index t (0 : Fin 2) * 128 + 1 * (y 0).val = (y 0).val; omega
    | ⟨1, _⟩ => show win0_1.index t (1 : Fin 2) * 64 + 1 * (y 1).val = (y 1).val; omega
  · funext y
    show V c main_arg4 (((cfg0.win 2).blk t).view.emb y) = V c main_arg4 y
    refine congrArg (V c main_arg4) (funext fun a => Fin.ext ?_)
    match a with
    | ⟨0, _⟩ => show win0_2.index t (0 : Fin 1) * 64 + 1 * (y 0).val = (y 0).val; omega

/-- An index of the result array is in point `t`'s block iff each coordinate is in the block's range on its axis. -/
theorem mem_blk (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v0).slice (win0_3.rect t)).set ↔ _
  rw [View.set_slice_whole, Rect.mem_set_unit]
  exact Iff.rfl

/-- The blocks tile the rows: row `r` is in the block of point `r / 5000`. -/
theorem cover (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, ht⟩ := idx_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

/-- The region's result array after its last point: the whole layer of the arrays as the region found them. -/
theorem final (c : Dev nD) : (dat0 V c).arrAt 3 cfg0.N = dense (V c main_arg0) (V c main_arg3) (V c main_arg4) :=
  (dat0 V c).arrAt_eq_of_cover 3 _ (fun t _ => flushed V c t) cover

end

end Cert.KernelIdeal.NodeLayer

end
-- ==== Proof.EdgeLayer.lean ====
/-
  The edge projection at the extended reals. The region runs one body over a grid of 100 points; point t takes rows
  16000·t … 16000·t + 15999 of the edge attributes x, the whole weight matrix W and the whole bias b, and writes the same rows
  of the result: the block of rows times W, plus b repeated down the block. The 100 blocks tile the 1600000 rows, so after
  the last point the result array is the dense layer x·W + b of the arrays the region found, entry by entry.
-/
import proofs.«171068_j35837207117863_1_alg».proof.Proof.Gen.KernelIdeal.Frame
import proofs.«171068_j35837207117863_1_alg».proof.Proof.LinearBlock
import Idealize.ShloMosaic.Lib.Pipeline.Value

set_option maxRecDepth 16384

noncomputable section

namespace Cert.KernelIdeal.EdgeLayer

open Idealize.ShloMosaic Idealize.ShloMosaic.TcCoe Idealize.SL.Sem
open Idealize.ShloMosaic.ValueIdx Idealize.ShloMosaic.SageSpec
open Idealize.ShloMosaic.Pipeline (Dat Cfg Window)
open Cert.KernelIdeal Cert.KernelIdeal.Gen Cert.LinearBlock

/-- The product contracts the left operand's columns with the right operand's rows. -/
theorem plain : PlainDot dot_S16000x32_S32x64_S16000x64_1_0_0_1_n_n where
  rank := rfl
  size := fun _ => rfl
  l0 := fun i q => by
    unfold DotDims.lhsIdx
    rw [dif_neg (show ¬(0 : Fin S16000x32.rank) ∈ dot_S16000x32_S32x64_S16000x64_1_0_0_1_n_n.lhsBatch by decide), dif_pos (show (0 : Fin S16000x32.rank) ∈ dot_S16000x32_S32x64_S16000x64_1_0_0_1_n_n.lhsNonContracting by decide)]
    rfl
  l1 := fun i q _ => dot_S16000x32_S32x64_S16000x64_1_0_0_1_n_n.lhsIdx_val_of_single rfl i q
  r0 := fun i q _ => dot_S16000x32_S32x64_S16000x64_1_0_0_1_n_n.rhsIdx_val_of_single rfl i q
  r1 := fun i q => by
    unfold DotDims.rhsIdx
    rw [dif_neg (show ¬(1 : Fin S32x64.rank) ∈ dot_S16000x32_S32x64_S16000x64_1_0_0_1_n_n.rhsBatch by decide), dif_pos (show (1 : Fin S32x64.rank) ∈ dot_S16000x32_S32x64_S16000x64_1_0_0_1_n_n.rhsNonContracting by decide)]
    rfl

/-- The layer as one function of three whole arrays: entry (r, q) is row `r` of `x` against column `q` of `w`, plus `b q`. -/
def dense (x : S1600000x32.Idx → EReal) (w : S32x64.Idx → EReal) (b : S64.Idx → EReal) : S1600000x64.Idx → EReal :=
  linF x w (fun q => b (ix1 q))

/-- The body's stored value at an index `j` of the block, from three loaded blocks: if the first block's row `j 0` is row `i 0`
    of `x`, the other two blocks are `w` and `b` whole, and `i` has `j`'s column, it is the layer's entry at `i`. -/
theorem stored_eq (X : S1600000x32.Idx → EReal) (Wm : S32x64.Idx → EReal) (B : S64.Idx → EReal)
    (x0 : Vec Ideal S16000x32 .f32) (x1 : Vec Ideal S32x64 .f32) (x2 : Vec Ideal S64 .f32)
    (j : S16000x64.Idx) (i : S1600000x64.Idx) (hcol : (i 1).val = (j 1).val)
    (hx : ∀ κ : Fin 32, x0 (ix2 (j 0) κ) = X (ix2 (i 0) κ)) (hw : x1 = Wm) (hb : x2 = B) :
    k1_pay1 (F := Ideal) x0 x1 x2 j = dense X Wm B i := by
  subst hw hb
  unfold k1_pay1 dense
  exact block_eq_layer plain X x0 x1 x2 _ _ _ j i hcol hx

/-- The printed index maps over the grid: point `t` takes block `t` of the rows, all the columns, and the weight matrix and
    the bias whole. -/
theorem idx_facts : ∀ t : Fin cfg1.N, win1_0.index t (0 : Fin 2) = t.val ∧ win1_0.index t (1 : Fin 2) = 0
    ∧ win1_3.index t (0 : Fin 2) = t.val ∧ win1_3.index t (1 : Fin 2) = 0
    ∧ win1_1.index t (0 : Fin 2) = 0 ∧ win1_1.index t (1 : Fin 2) = 0 ∧ win1_2.index t (0 : Fin 1) = 0 :=
  (by decide +kernel : ∀ t : Fin grid1.N, _)

/-- Every block of rows is some point's. -/
theorem idx_onto : ∀ q0 : Fin 100, ∃ t : Fin cfg1.N, win1_3.index t = ![q0.val, 0] :=
  (by decide +kernel : ∀ q0 : Fin 100, ∃ t : Fin grid1.N, win1_3.index t = ![q0.val, 0])

section
variable (V : (c : Dev nD) → (b : Ref sig .tc) → Buf (Elt Ideal) ((c : Thread nD τ).loc b))

/-- What point `t` writes back is block `t` of the layer of the arrays as the region finds them. -/
theorem flushed (c : Dev nD) (t : Fin cfg1.N) :
    (dat1 V c).flushed 3 t
      = ((cfg1.win 3).blk t).view.read (Elt Ideal) (dense (V c main_arg2) (V c main_arg5) (V c main_arg6)) := by
  show (cfg1.win 3).cut (grid1.coords t) ((dat1 V c).after 3 t) = _
  rw [after1_3]
  unfold out1_3
  rw [View.canon_unit_zero zero_off2]
  simp only [View.ld_unit_zero (S := S16000x32) zero_off2, View.ld_unit_zero (S := S32x64) zero_off2, View.ld_unit_zero (S := S64) zero_off1]
  obtain ⟨e00, e01, e30, e31, e10, e11, e20⟩ := idx_facts t
  funext j
  show k1_pay1 (F := Ideal) (iblk1 V c 0 t) (iblk1 V c 1 t) (iblk1 V c 2 t) j
    = dense (V c main_arg2) (V c main_arg5) (V c main_arg6) (((cfg1.win 3).blk t).view.emb j)
  refine stored_eq (V c main_arg2) (V c main_arg5) (V c main_arg6) (iblk1 V c 0 t) (iblk1 V c 1 t) (iblk1 V c 2 t) j
    (((cfg1.win 3).blk t).view.emb j) ?_ ?_ ?_ ?_
  · show win1_3.index t (1 : Fin 2) * 64 + 1 * (j 1).val = (j 1).val
    omega
  · intro κ
    show V c main_arg2 (((cfg1.win 0).blk t).view.emb (ix2 (j 0) κ)) = V c main_arg2 (ix2 ((((cfg1.win 3).blk t).view.emb j) 0) κ)
    refine congrArg (V c main_arg2) (funext fun a => Fin.ext ?_)
    match a with
    | ⟨0, _⟩ => show win1_0.index t (0 : Fin 2) * 16000 + 1 * (j 0).val = win1_3.index t (0 : Fin 2) * 16000 + 1 * (j 0).val; omega
    | ⟨1, _⟩ => show win1_0.index t (1 : Fin 2) * 32 + 1 * κ.val = κ.val; omega
  · funext y
    show V c main_arg5 (((cfg1.win 1).blk t).view.emb y) = V c main_arg5 y
    refine congrArg (V c main_arg5) (funext fun a => Fin.ext ?_)
    match a with
    | ⟨0, _⟩ => show win1_1.index t (0 : Fin 2) * 32 + 1 * (y 0).val = (y 0).val; omega
    | ⟨1, _⟩ => show win1_1.index t (1 : Fin 2) * 64 + 1 * (y 1).val = (y 1).val; omega
  · funext y
    show V c main_arg6 (((cfg1.win 2).blk t).view.emb y) = V c main_arg6 y
    refine congrArg (V c main_arg6) (funext fun a => Fin.ext ?_)
    match a with
    | ⟨0, _⟩ => show win1_2.index t (0 : Fin 1) * 64 + 1 * (y 0).val = (y 0).val; omega

/-- An index of the result array is in point `t`'s block iff each coordinate is in the block's range on its axis. -/
theorem mem_blk (t : Fin cfg1.N) (i : S1600000x64.Idx) :
    i ∈ ((cfg1.win 3).blk t).view.set ↔ ∀ a : Fin 2, win1_3.index t a * S16000x64.size a ≤ (i a).val ∧ (i a).val < win1_3.index t a * S16000x64.size a + S16000x64.size a := by
  show i ∈ ((View.whole main_v1).slice (win1_3.rect t)).set ↔ _
  rw [View.set_slice_whole, Rect.mem_set_unit]
  exact Iff.rfl

/-- The blocks tile the rows: row `r` is in the block of point `r / 16000`. -/
theorem cover (i : S1600000x64.Idx) : ∃ t : Fin cfg1.N, (cfg1.win 3).flush t = true ∧ i ∈ ((cfg1.win 3).blk t).view.set := by
  have hi0 : (i 0).val < 1600000 := (i 0).isLt
  have hi1 : (i 1).val < 64 := (i 1).isLt
  obtain ⟨t, ht⟩ := idx_onto ⟨(i 0).val / 16000, by omega⟩
  have q0 : win1_3.index t (0 : Fin 2) = (i 0).val / 16000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 16000 ≤ (i 0).val ∧ (i 0).val < win1_3.index t (0 : Fin 2) * 16000 + 16000; omega
  | ⟨1, _⟩ => show win1_3.index t (1 : Fin 2) * 64 ≤ (i 1).val ∧ (i 1).val < win1_3.index t (1 : Fin 2) * 64 + 64; omega

/-- The region's result array after its last point: the whole layer of the arrays as the region found them. -/
theorem final (c : Dev nD) : (dat1 V c).arrAt 3 cfg1.N = dense (V c main_arg2) (V c main_arg5) (V c main_arg6) :=
  (dat1 V c).arrAt_eq_of_cover 3 _ (fun t _ => flushed V c t) cover

end

end Cert.KernelIdeal.EdgeLayer

end
-- ==== Proof.Tail.lean ====
/-
  What both programs do with the two projected arrays. `h` holds one 64-vector per node, `e` one per edge; the edge list
  `ei` has the destination node of each edge in its row 0 and the source node in its row 1. A source index below zero is
  wrapped once by the node count. Each edge's message is its source node's row of `h` plus its own row of `e`; the
  messages are summed into their destination nodes, the edges into each node are counted the same way, and every node's
  sum is divided by its count, a count of zero replaced by one. The two programs print this composition operation for
  operation, so it is carried as ONE function of (h, e, ei) and never opened.
-/
import proofs.«171068_j35837207117863_1_alg».proof.KernelIdeal
import proofs.«171068_j35837207117863_1_alg».proof.Proof.Gen.KernelIdeal
import proofs.«171068_j35837207117863_1_alg».proof.Proof.Gen.KernelIdeal.Launch
import Idealize.ShloMosaic.Lib.StableHlo.Run
import Idealize.ShloMosaic.PureOps.Ideal

noncomputable section

namespace Cert.MeanAgg

open Idealize.ShloMosaic Idealize.ShloMosaic.TcCoe Idealize.SL.Sem Idealize.ShloMosaic.StableHlo
open Cert.KernelIdeal Cert.KernelIdeal.Gen

/-- The mean over incoming edges of (source row of `h`) + (edge row of `e`), node by node. -/
def meanAgg (h : FVec Ideal S100000x64 .f32) (e : FVec Ideal S1600000x64 .f32)
    (ei : (⟨S2x1600000, .i32⟩ : BufTy).Contents (Elt Ideal)) : FVec Ideal S100000x64 .f32 :=
  Host.divf (F := Ideal) (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (shapeCast _ (extractStridedSlice S1x1600000 ![0, 0] ei slices_S2x1600000_S1x1600000_0_0) shapeCasts_S1x1600000_S1600000)) (addf (Host.gather gather_S100000x64_S1600000x1_S1600000x64_1_0_n_n_0_1_164 h (broadcastInDim S1600000x1 ![0] bcast_S1600000_S1600000x1_0 (select (cmpi .slt (shapeCast _ (extractStridedSlice S1x1600000 ![1, 0] ei slices_S2x1600000_S1x1600000_1_0) shapeCasts_S1x1600000_S1600000) (broadcastInDim S1600000 ![] bcast_S_S1600000 (constantI S_ 32 0#32))) (addi (shapeCast _ (extractStridedSlice S1x1600000 ![1, 0] ei slices_S2x1600000_S1x1600000_1_0) shapeCasts_S1x1600000_S1600000) (broadcastInDim S1600000 ![] bcast_S_S1600000 (constantI S_ 32 100000#32))) (shapeCast _ (extractStridedSlice S1x1600000 ![1, 0] ei slices_S2x1600000_S1x1600000_1_0) shapeCasts_S1x1600000_S1600000)))) e)) (broadcastInDim S100000x64 ![0, 1] bcast_S100000x1_S100000x64_0_1 (broadcastInDim S100000x1 ![0] bcast_S100000_S100000x1_0 (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (shapeCast _ (extractStridedSlice S1x1600000 ![0, 0] ei slices_S2x1600000_S1x1600000_0_0) shapeCasts_S1x1600000_S1600000)) (broadcastInDim S1600000 ![] bcast_S_S1600000 (constant S_ .f32 0x3F800000#32))) (broadcastInDim S100000 ![] bcast_S_S100000 (constant S_ .f32 0x3F800000#32)))))

set_option maxHeartbeats 2000000 in
/-- The kernel program's host operations after its two regions, run from ANY buffer contents `W`, leave in the result buffer
    the mean aggregation of what `W` holds in the two regions' output arrays and in the edge list. -/
theorem after_hostTail (W : Valuation τ sig (Elt Ideal)) :
    StableHlo.after (hostOps2 (F := Ideal)) W (Proc.devRef .tc main_v25)
      = meanAgg (W (Proc.devRef .tc main_v0)) (W (Proc.devRef .tc main_v1)) (W (Proc.devRef .tc main_arg1)) := by
  after_results_simp <;> rfl

end Cert.MeanAgg

end
-- ==== Proof.KernelValue.lean ====
/-
  The kernel program's result at the extended reals. Region 0 leaves the node layer x·W_node + b_node in its output array,
  region 1 the edge layer edge_attr·W_edge + b_edge in its own; neither writes the other's arrays nor the edge list, and
  region 1 finds its three inputs as launched. The host operations after the regions are the mean aggregation, carried as
  one function: the result buffer ends at the mean aggregation of the two layers along the edge list.
-/
import proofs.«171068_j35837207117863_1_alg».proof.Proof.NodeLayer
import proofs.«171068_j35837207117863_1_alg».proof.Proof.EdgeLayer
import proofs.«171068_j35837207117863_1_alg».proof.Proof.Tail
import proofs.«171068_j35837207117863_1_alg».proof.Proof.KernelIdealRun

set_option maxRecDepth 16384

noncomputable section

namespace Cert.KernelIdeal.Result

open Idealize.ShloMosaic Idealize.ShloMosaic.TcCoe Idealize.SL.Sem
open Cert.KernelIdeal Cert.KernelIdeal.Gen Cert.MeanAgg

variable (m : (ℓ : Loc nD τ sig) → Buf (Elt Ideal) ℓ) (ρ : Dev nD → PrngReg)

/-- The program's result as a function of its arguments. -/
def result (c : Dev nD) : FVec Ideal S100000x64 .f32 :=
  meanAgg (NodeLayer.dense (m ((c : Thread nD τ).loc main_arg0)) (m ((c : Thread nD τ).loc main_arg3)) (m ((c : Thread nD τ).loc main_arg4)))
    (EdgeLayer.dense (m ((c : Thread nD τ).loc main_arg2)) (m ((c : Thread nD τ).loc main_arg5)) (m ((c : Thread nD τ).loc main_arg6)))
    (m ((c : Thread nD τ).loc main_arg1))

/-- At the last boundary the result buffer holds it. -/
theorem W3_result (c : Dev nD) : W3 m ρ c (Proc.devRef .tc main_v25) = result m c := by
  have h0 : W2 m ρ c (Proc.devRef .tc main_v0)
      = NodeLayer.dense (m ((c : Thread nD τ).loc main_arg0)) (m ((c : Thread nD τ).loc main_arg3)) (m ((c : Thread nD τ).loc main_arg4)) :=
    (W2_of_ne m ρ c main_v0 (by decide)).trans ((W1_arr m ρ c 3).trans (NodeLayer.final (V0 m ρ) c))
  have e2 : V1 m ρ c main_arg2 = m ((c : Thread nD τ).loc main_arg2) := W1_of_ne m ρ c main_arg2 (by decide)
  have e5 : V1 m ρ c main_arg5 = m ((c : Thread nD τ).loc main_arg5) := W1_of_ne m ρ c main_arg5 (by decide)
  have e6 : V1 m ρ c main_arg6 = m ((c : Thread nD τ).loc main_arg6) := W1_of_ne m ρ c main_arg6 (by decide)
  have h1 : W2 m ρ c (Proc.devRef .tc main_v1)
      = EdgeLayer.dense (m ((c : Thread nD τ).loc main_arg2)) (m ((c : Thread nD τ).loc main_arg5)) (m ((c : Thread nD τ).loc main_arg6)) := by
    rw [← e2, ← e5, ← e6]
    exact (W2_arr m ρ c 3).trans (EdgeLayer.final (V1 m ρ) c)
  have hi : W2 m ρ c (Proc.devRef .tc main_arg1) = m ((c : Thread nD τ).loc main_arg1) :=
    (W2_of_ne m ρ c main_arg1 (by decide)).trans (W1_of_ne m ρ c main_arg1 (by decide))
  show StableHlo.after hostOps2 (W2 m ρ c) (Proc.devRef .tc main_v25) = _
  rw [after_hostTail, h0, h1, hi]
  rfl

/-- The run of @main with its result named: every weakly fair execution terminates, nothing faulting, the result buffer at
    `result` of the launch memory and the arguments as launched. -/
theorem run : θ_run defs (onTc (τ := τ) (main (F := Ideal))) ⟨m, fun _ => 0, ρ⟩ (fun r => ∀ c : Dev nD,
      r.2.mem ((c.tc : Thread nD τ).loc main_v25) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (W3_result m ρ c), (h c).2⟩)
    (Cert.KernelIdeal.ResultRun.run_result m ρ)

end Cert.KernelIdeal.Result

end
-- ==== Proof.RefValue.lean ====
/-
  The reference's result at the extended reals. Its node projection is a host matrix product of the node features with
  the weight matrix plus the bias, laid out as a row and repeated over the rows: entry (r, q) is row `r` against column
  `q`, plus the bias at `q` — the dense layer. The edge projection is the same at its sizes. What follows them is the mean
  aggregation, operation for operation what the kernel program does after its regions, so the reference's result is the
  mean aggregation of the two dense layers along the edge list.
-/
import proofs.«171068_j35837207117863_1_alg».proof.Proof.Gen.ReferenceIdeal.Run
import proofs.«171068_j35837207117863_1_alg».proof.Proof.Gen.ReferenceIdeal.Read
import proofs.«171068_j35837207117863_1_alg».proof.Proof.LibSageSpec
import proofs.«171068_j35837207117863_1_alg».proof.Proof.Tail

noncomputable section

namespace Cert.ReferenceIdeal.RefValue

open Idealize.ShloMosaic Idealize.ShloMosaic.TcCoe Idealize.SL.Sem
open Idealize.ShloMosaic.ValueIdx Idealize.ShloMosaic.SageSpec
open Cert.ReferenceIdeal Cert.ReferenceIdeal.Gen Cert.ReferenceIdeal.Read

/-- The node projection is the dense layer: the contracted index runs over the features' columns and the weights' rows,
    and both broadcasts of the bias read it at the column. -/
theorem node_layer (x0 : (⟨S100000x128, .f32⟩ : BufTy).Contents (Elt Ideal)) (x3 : (⟨S128x64, .f32⟩ : BufTy).Contents (Elt Ideal))
    (x4 : (⟨S64, .f32⟩ : BufTy).Contents (Elt Ideal)) :
    val_main_v3 (F := Ideal) x0 x3 x4 = linF x0 x3 (fun q => x4 (ix1 q)) := by
  funext i
  rw [val_main_v3_apply, val_main_v0_apply, val_main_v2_apply, val_main_v1_apply, Ideal.addf_def]
  unfold linF rowDot
  refine congrArg₂ (· + ·) (Finset.sum_congr rfl fun κ _ => ?_) ?_
  · refine congrArg₂ (· * ·) (congrArg x0 (funext fun a => ?_)) (congrArg x3 (funext fun a => ?_))
    · match a with
      | ⟨0, _⟩ => rfl
      | ⟨1, _⟩ => rfl
    · match a with
      | ⟨0, _⟩ => rfl
      | ⟨1, _⟩ => rfl
  · refine congrArg x4 (funext fun a => ?_)
    match a with
    | ⟨0, _⟩ => rfl

/-- The edge projection is the dense layer at its sizes. -/
theorem edge_layer (x2 : (⟨S1600000x32, .f32⟩ : BufTy).Contents (Elt Ideal)) (x5 : (⟨S32x64, .f32⟩ : BufTy).Contents (Elt Ideal))
    (x6 : (⟨S64, .f32⟩ : BufTy).Contents (Elt Ideal)) :
    val_main_v7 (F := Ideal) x2 x5 x6 = linF x2 x5 (fun q => x6 (ix1 q)) := by
  funext i
  rw [val_main_v7_apply, val_main_v4_apply, val_main_v6_apply, val_main_v5_apply, Ideal.addf_def]
  unfold linF rowDot
  refine congrArg₂ (· + ·) (Finset.sum_congr rfl fun κ _ => ?_) ?_
  · refine congrArg₂ (· * ·) (congrArg x2 (funext fun a => ?_)) (congrArg x5 (funext fun a => ?_))
    · match a with
      | ⟨0, _⟩ => rfl
      | ⟨1, _⟩ => rfl
    · match a with
      | ⟨0, _⟩ => rfl
      | ⟨1, _⟩ => rfl
  · refine congrArg x6 (funext fun a => ?_)
    match a with
    | ⟨0, _⟩ => rfl

/-- The reference's whole term is the mean aggregation of its two projections: the operations after them are the ones
    the mean aggregation names, one for one. -/
theorem result_eq_meanAgg (x0 : (⟨S100000x128, .f32⟩ : BufTy).Contents (Elt Ideal)) (x1 : (⟨S2x1600000, .i32⟩ : BufTy).Contents (Elt Ideal))
    (x2 : (⟨S1600000x32, .f32⟩ : BufTy).Contents (Elt Ideal)) (x3 : (⟨S128x64, .f32⟩ : BufTy).Contents (Elt Ideal))
    (x4 : (⟨S64, .f32⟩ : BufTy).Contents (Elt Ideal)) (x5 : (⟨S32x64, .f32⟩ : BufTy).Contents (Elt Ideal))
    (x6 : (⟨S64, .f32⟩ : BufTy).Contents (Elt Ideal)) :
    val_main_v31 (F := Ideal) x0 x1 x2 x3 x4 x5 x6
      = Cert.MeanAgg.meanAgg (val_main_v3 (F := Ideal) x0 x3 x4) (val_main_v7 (F := Ideal) x2 x5 x6) x1 := rfl

/-- The reference's result as a function of its arguments. -/
theorem result_eq (x0 : (⟨S100000x128, .f32⟩ : BufTy).Contents (Elt Ideal)) (x1 : (⟨S2x1600000, .i32⟩ : BufTy).Contents (Elt Ideal))
    (x2 : (⟨S1600000x32, .f32⟩ : BufTy).Contents (Elt Ideal)) (x3 : (⟨S128x64, .f32⟩ : BufTy).Contents (Elt Ideal))
    (x4 : (⟨S64, .f32⟩ : BufTy).Contents (Elt Ideal)) (x5 : (⟨S32x64, .f32⟩ : BufTy).Contents (Elt Ideal))
    (x6 : (⟨S64, .f32⟩ : BufTy).Contents (Elt Ideal)) :
    val_main_v31 (F := Ideal) x0 x1 x2 x3 x4 x5 x6
      = Cert.MeanAgg.meanAgg (linF x0 x3 (fun q => x4 (ix1 q))) (linF x2 x5 (fun q => x6 (ix1 q))) x1 := by
  rw [result_eq_meanAgg, node_layer, edge_layer]

end Cert.ReferenceIdeal.RefValue

end
-- ==== Proof.lean ====
/-
  Mean aggregation of projected node and edge features, kernel against reference, at the extended reals.

  Both programs compute h = x·W_node + b_node (one 64-vector per node) and e = edge_attr·W_edge + b_edge (one per edge),
  then, along the edge list, the mean over each node's incoming edges of (source node's row of h) + (the edge's row of e), a
  node without incoming edges dividing by one. They differ only in how h and e are made. The reference takes each as one
  host matrix product plus the bias repeated over the rows. The kernel program makes each in a region of row blocks — 20
  blocks of 5000 rows for h, 100 blocks of 16000 rows for e — every grid point multiplying its block by the whole weight
  matrix into a zero accumulator and adding the bias; its operands are narrowed to a shorter float format first, which at
  the extended reals is the identity. The contracted axis (128, or 32) is never split, so entry (r, q) of either program's
  h is the same sum over that axis of x(r, κ)·W(κ, q), plus b(q), term for term: no reordering and no law that needs
  finiteness, so the precondition is never opened. The blocks tile the rows, so each region's output array is the whole
  layer. From there on the two programs print the same operations, carried as one function of (h, e, edge list).

  The kernel programs' frames are the generated ones; the reference's frame is its generated run with the result dropped;
  no rewrite was applied in printing the idealized kernel, so there is nothing to preserve.
-/
import proofs.«171068_j35837207117863_1_alg».proof.Defs
import proofs.«171068_j35837207117863_1_alg».proof.Proof.Gen.Kernel
import proofs.«171068_j35837207117863_1_alg».proof.Proof.Gen.Kernel.Frame
import proofs.«171068_j35837207117863_1_alg».proof.Proof.Gen.KernelIdeal
import proofs.«171068_j35837207117863_1_alg».proof.Proof.Gen.KernelIdeal.Frame
import proofs.«171068_j35837207117863_1_alg».proof.Proof.Gen.ReferenceIdeal
import proofs.«171068_j35837207117863_1_alg».proof.Proof.Gen.ReferenceIdeal.Run
import proofs.«171068_j35837207117863_1_alg».proof.Proof.Gen.ReferenceIdeal.Read
import proofs.«171068_j35837207117863_1_alg».proof.Proof.Gen.Pre_finite_inputs
import proofs.«171068_j35837207117863_1_alg».proof.Proof.KernelValue
import proofs.«171068_j35837207117863_1_alg».proof.Proof.RefValue
import Idealize.ShloMosaic.Adequacy
import Idealize.ShloMosaic.Init

noncomputable section

namespace Cert.Proof

open Idealize.ShloMosaic Idealize.SL.Sem

/-- From memories that agree on the seven arguments both programs end with the same result: the kernel program's result
    buffer at the mean aggregation of its two layers, the reference's at the mean aggregation of its two projections, and
    layer and projection are one function of the arguments. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v31_eq, Cert.ReferenceIdeal.RefValue.result_eq, a0, a1, a2, a3, a4, a5, a6]
  rfl

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
